-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S102400x128 : Shape := ⟨2, ![102400, 128]⟩
abbrev S4096x128 : Shape := ⟨2, ![4096, 128]⟩
abbrev S1x128 : Shape := ⟨2, ![1, 128]⟩

abbrev nBuf : Space → Nat
  | .hbm => 78
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S_, .f32⟩
  | .hbm, ⟨39, _⟩ => ⟨S102400x128, .f32⟩
  | .hbm, ⟨40, _⟩ => ⟨S_, .i32⟩
  | .hbm, ⟨41, _⟩ => ⟨S_, .f32⟩
  | .hbm, ⟨42, _⟩ => ⟨S102400x128, .f32⟩
  | .hbm, ⟨43, _⟩ => ⟨S102400x128, .f32⟩
  | .hbm, ⟨44, _⟩ => ⟨S100000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | .hbm, ⟨58, _⟩ => ⟨S_, .f32⟩
  | .hbm, ⟨59, _⟩ => ⟨S600000, .f32⟩
  | .hbm, ⟨60, _⟩ => ⟨S_, .f32⟩
  | .hbm, ⟨61, _⟩ => ⟨S100000, .f32⟩
  | .hbm, ⟨62, _⟩ => ⟨S600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S_, .f32⟩
  | .hbm, ⟨72, _⟩ => ⟨S102400x128, .f32⟩
  | .hbm, ⟨73, _⟩ => ⟨S_, .i32⟩
  | .hbm, ⟨74, _⟩ => ⟨S_, .f32⟩
  | .hbm, ⟨75, _⟩ => ⟨S102400x128, .f32⟩
  | .hbm, ⟨76, _⟩ => ⟨S102400x128, .f32⟩
  | .hbm, ⟨77, _⟩ => ⟨S100000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S4096x128, .f32⟩
  | .local _ .vmem, ⟨17, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_call0_v0 : Ref sig .tc := ⟨.hbm, 38, rfl⟩
abbrev main_v23 : Ref sig .tc := ⟨.hbm, 39, rfl⟩
abbrev main_c_5 : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_call2_v0 : Ref sig .tc := ⟨.hbm, 71, rfl⟩
abbrev main_v46 : Ref sig .tc := ⟨.hbm, 72, rfl⟩
abbrev main_c_13 : Ref sig .tc := ⟨.hbm, 73, rfl⟩
abbrev main_call3_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  pads_S100000x128_S102400x128_024000_000 : S100000x128.Pads (![0, 0] : Fin 2 → Nat) ![2400, 0] ![0, 0] S102400x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  slices_S102400x128_S100000x128_0_0 : S102400x128.Slices ![0, 0] S100000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S102400x128.size a
  hwx0_1 : ∀ i : grid0.Coords, EltTy.bits .f32 = 32 ∨ (Rect.block (s := S102400x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S102400x128.size a
  hwx0_5 : ∀ i : grid0.Coords, EltTy.bits .f32 = 32 ∨ (Rect.block (s := S102400x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S102400x128.size a
  hwx1_1 : ∀ i : grid1.Coords, EltTy.bits .f32 = 32 ∨ (Rect.block (s := S102400x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S102400x128.size a
  hwx1_5 : ∀ i : grid1.Coords, EltTy.bits .f32 = 32 ∨ (Rect.block (s := S102400x128) S4096x128.size (cc1_transform_5 i) (hinb1_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v23) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S100000x128, .f32⟩
  | .hbm, ⟨57, _⟩ => ⟨S600000x1, .i32⟩
  | .hbm, ⟨58, _⟩ => ⟨S100000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S100000, .f32⟩
  | .hbm, ⟨63, _⟩ => ⟨S600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelChain.lean ====
/-
  The values the kernel's program computes on the host, around its two launches.

  Before each launch the program gathers the features of every edge's source node, adds them up per destination node,
  divides by the (at least one) number of incoming edges — the neighbourhood mean `meanOfRaw` — and pads the means and
  the features with 2400 zero rows to 25 blocks of 4096 rows. After each launch it keeps the first 100000 rows. The
  lemmas below read each buffer the launches are entered with, and the result buffer, as these functions of the
  arguments and of the previous launch's output.
-/
import proofs.«103073_j46866683134377_1_alg».proof.Proof.Gen.KernelIdeal.Frame
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal.Gen

variable {F : FTy → Type} [FloatOps F]

/-- Row 0 of the edge list: every edge's source node. -/
def srcRaw (e : Vec F S2x600000 .i32) : Vec F S600000 .i32 :=
  shapeCast S600000 (extractStridedSlice S1x600000 ![0, 0] e slices_S2x600000_S1x600000_0_0) shapeCasts_S1x600000_S600000

/-- Row 1 of the edge list: every edge's destination node. -/
def dstRaw (e : Vec F S2x600000 .i32) : Vec F S600000 .i32 :=
  shapeCast S600000 (extractStridedSlice S1x600000 ![1, 0] e slices_S2x600000_S1x600000_1_0) shapeCasts_S1x600000_S600000

/-- The neighbourhood means of the features `h` over the edges with sources `s` and destinations `d`: a negative
    source counts from the end; the gathered rows are summed per destination and divided by the number of incoming
    edges, at least one. -/
def meanOfRaw (s d : Vec F S600000 .i32) (h : FVec F S100000x128 .f32) : FVec F S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 d)
      (Host.gather gather_S100000x128_S600000x1_S600000x128_1_0_n_n_0_1_1128 h
        (broadcastInDim S600000x1 ![0] bcast_S600000_S600000x1_0
          (select (cmpi .slt s (broadcastInDim S600000 ![] bcast_S_S600000 (constantI S_ 32 0#32)))
            (addi s (broadcastInDim S600000 ![] bcast_S_S600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 d)
            (broadcastInDim S600000 ![] bcast_S_S600000 (constant S_ .f32 0x3F800000#32)))
          (broadcastInDim S100000 ![] bcast_S_S100000 (constant S_ .f32 0x3F800000#32)))))

/-- 2400 rows of zeros appended: 100000 rows made 25 blocks of 4096. -/
def padRows (a : FVec F S100000x128 .f32) : FVec F S102400x128 .f32 :=
  pad S102400x128 ![0, 0] ![2400, 0] ![0, 0] a (sitofp (F := F) .f32 (constantI S_ 32 0#32)) pads_S100000x128_S102400x128_024000_000 h_S_

/-- The first 100000 rows. -/
def topRows (a : FVec F S102400x128 .f32) : FVec F S100000x128 .f32 :=
  extractStridedSlice S100000x128 ![0, 0] a slices_S102400x128_S100000x128_0_0

variable (m : (ℓ : Loc nD τ sig) → Buf (Elt F) ℓ) (ρ : Dev nD → PrngReg)

/-! ## The first launch's operands -/

theorem W4_src (c : Dev nD) : W4 m ρ c (Proc.devRef .tc main_v1) = srcRaw (m ((c.tc : Thread nD τ).loc main_arg1)) := by
  dsimp only [W4, W3, W2, W1, hostOps0_3, hostOps0_2, hostOps0_1, hostOps0]
  after_results
  rfl

theorem W4_dst (c : Dev nD) : W4 m ρ c (Proc.devRef .tc main_v3) = dstRaw (m ((c.tc : Thread nD τ).loc main_arg1)) := by
  dsimp only [W4, W3, W2, W1, hostOps0_3, hostOps0_2, hostOps0_1, hostOps0]
  after_results
  rfl

set_option maxHeartbeats 8000000 in
theorem V4_mean (c : Dev nD) : V4 m ρ c main_v23
    = padRows (meanOfRaw (srcRaw (m ((c.tc : Thread nD τ).loc main_arg1))) (dstRaw (m ((c.tc : Thread nD τ).loc main_arg1))) (m ((c.tc : Thread nD τ).loc main_arg0))) := by
  show W4 m ρ c (Proc.devRef .tc main_v23) = _
  dsimp only [W4, W3, W2, W1, hostOps0_3, hostOps0_2, hostOps0_1, hostOps0]
  after_results_simp
  rfl

theorem V4_feat (c : Dev nD) : V4 m ρ c main_v24 = padRows (m ((c.tc : Thread nD τ).loc main_arg0)) := by
  show W4 m ρ c (Proc.devRef .tc main_v24) = _
  dsimp only [W4, W3, W2, W1, hostOps0_3, hostOps0_2, hostOps0_1, hostOps0]
  after_results
  rfl

theorem W4_arg (c : Dev nD) (b : Ref sig .tc) (hb : b = main_arg2 ∨ b = main_arg3 ∨ b = main_arg4 ∨ b = main_arg5 ∨ b = main_arg6 ∨ b = main_arg7) :
    W4 m ρ c (Proc.devRef .tc b) = m ((c.tc : Thread nD τ).loc b) := by
  rcases hb with rfl | rfl | rfl | rfl | rfl | rfl <;>
  · dsimp only [W4, W3, W2, W1, hostOps0_3, hostOps0_2, hostOps0_1, hostOps0]
    after_results

/-! ## The second launch's operands, over what the first launch left -/

theorem W5_keep (c : Dev nD) (b : Ref sig .tc) (hb : ∀ w, Pipeline.arrRef spec0 w ≠ b) :
    W5 m ρ c (Proc.devRef .tc b) = W4 m ρ c (Proc.devRef .tc b) := W5_of_ne m ρ c b hb

set_option maxHeartbeats 8000000 in
theorem V9_mean (c : Dev nD) : V9 m ρ c main_v46
    = padRows (meanOfRaw (W5 m ρ c (Proc.devRef .tc main_v1)) (W5 m ρ c (Proc.devRef .tc main_v3)) (topRows (W5 m ρ c (Proc.devRef .tc main_v25)))) := by
  show W9 m ρ c (Proc.devRef .tc main_v46) = _
  dsimp only [W9, W8, W7, W6, hostOps1_3, hostOps1_2, hostOps1_1, hostOps1]
  after_results_simp
  rfl

theorem V9_feat (c : Dev nD) : V9 m ρ c main_v47 = padRows (topRows (W5 m ρ c (Proc.devRef .tc main_v25))) := by
  show W9 m ρ c (Proc.devRef .tc main_v47) = _
  dsimp only [W9, W8, W7, W6, hostOps1_3, hostOps1_2, hostOps1_1, hostOps1]
  after_results
  rfl

theorem W9_arg (c : Dev nD) (b : Ref sig .tc) (hb : b = main_arg5 ∨ b = main_arg6 ∨ b = main_arg7) :
    W9 m ρ c (Proc.devRef .tc b) = W5 m ρ c (Proc.devRef .tc b) := by
  rcases hb with rfl | rfl | rfl <;>
  · dsimp only [W9, W8, W7, W6, hostOps1_3, hostOps1_2, hostOps1_1, hostOps1]
    after_results

/-! ## The result -/

theorem W11_result (c : Dev nD) : W11 m ρ c (Proc.devRef .tc main_v49) = topRows (W10 m ρ c (Proc.devRef .tc main_v48)) := by
  dsimp only [W11, hostOps2]
  after_results
  rfl

end Cert.KernelIdeal.Hand

end
-- ==== Proof.Dense.lean ====
/-
  One layer of the network, entry by entry, at the ideal values.

  A layer takes the neighbourhood means `mean` and the node features `h` (one row per node, 128 columns), two
  128 × 128 weight matrices and a bias row, and gives at node `p`, column `q`

      (∑ₖ mean(p,k) · Wl(k,q)  +  ∑ₖ h(p,k) · Wr(k,q))  +  bl(q).

  The kernel adds the two products first and the bias last; the host formula adds the bias to the first product and
  the second product last. On the extended reals addition is commutative and associative with no side condition,
  so the two arrangements are one number (`combine_host_order`).
-/
import Idealize.ShloMosaic.PureOps.Ideal.Laws
import Idealize.ShloMosaic.Lib.ValueIdx

noncomputable section

namespace Cert.Sage

open Idealize.ShloMosaic Idealize.ShloMosaic.ValueIdx

variable {M : ℕ}

/-- Entry `(p, q)` of `mean · Wl + h · Wr + bl`, the two products added first. -/
def combine (mean h : FVec Ideal ⟨2, ![M, 128]⟩ .f32) (Wl Wr : FVec Ideal ⟨2, ![128, 128]⟩ .f32)
    (bl : FVec Ideal ⟨1, ![128]⟩ .f32) (p : Fin M) (q : Fin 128) : EReal :=
  ((∑ k : Fin 128, mean (ix2 p k) * Wl (ix2 k q)) + ∑ k : Fin 128, h (ix2 p k) * Wr (ix2 k q)) + bl (ix1 q)

/-- The host's order of the same three summands: first product, bias, second product. -/
theorem combine_host_order (mean h : FVec Ideal ⟨2, ![M, 128]⟩ .f32) (Wl Wr : FVec Ideal ⟨2, ![128, 128]⟩ .f32)
    (bl : FVec Ideal ⟨1, ![128]⟩ .f32) (p : Fin M) (q : Fin 128) :
    ((∑ k : Fin 128, mean (ix2 p k) * Wl (ix2 k q)) + bl (ix1 q)) + (∑ k : Fin 128, h (ix2 p k) * Wr (ix2 k q))
      = combine mean h Wl Wr bl p q :=
  add_right_comm _ _ _

/-- What the first layer does to an entry last: the larger of the entry and zero. -/
def finish0 (z : EReal) : EReal := max z (Ideal.ofBits .f32 0x00000000#32)

/-- What the second layer does to an entry last: nothing. -/
def finish1 (z : EReal) : EReal := z

/-- The first layer's whole output array: every entry rectified. -/
def layer0 (mean h : FVec Ideal ⟨2, ![M, 128]⟩ .f32) (Wl Wr : FVec Ideal ⟨2, ![128, 128]⟩ .f32)
    (bl : FVec Ideal ⟨1, ![128]⟩ .f32) : FVec Ideal ⟨2, ![M, 128]⟩ .f32 :=
  fun i => finish0 (combine mean h Wl Wr bl (i 0) (i 1))

/-- The second layer's whole output array. -/
def layer1 (mean h : FVec Ideal ⟨2, ![M, 128]⟩ .f32) (Wl Wr : FVec Ideal ⟨2, ![128, 128]⟩ .f32)
    (bl : FVec Ideal ⟨1, ![128]⟩ .f32) : FVec Ideal ⟨2, ![M, 128]⟩ .f32 :=
  fun i => finish1 (combine mean h Wl Wr bl (i 0) (i 1))

theorem layer0_apply (mean h : FVec Ideal ⟨2, ![M, 128]⟩ .f32) (Wl Wr : FVec Ideal ⟨2, ![128, 128]⟩ .f32)
    (bl : FVec Ideal ⟨1, ![128]⟩ .f32) (p : Fin M) (q : Fin 128) :
    layer0 mean h Wl Wr bl (ix2 p q) = max (combine mean h Wl Wr bl p q) (Ideal.ofBits .f32 0x00000000#32) := rfl

theorem layer1_apply (mean h : FVec Ideal ⟨2, ![M, 128]⟩ .f32) (Wl Wr : FVec Ideal ⟨2, ![128, 128]⟩ .f32)
    (bl : FVec Ideal ⟨1, ![128]⟩ .f32) (p : Fin M) (q : Fin 128) :
    layer1 mean h Wl Wr bl (ix2 p q) = combine mean h Wl Wr bl p q := rfl

/-- An entry of a layer depends on the one row `p` of `mean` and of `h`: two pairs of arrays that agree on that row give
    the same entry. -/
theorem combine_congr {M' : ℕ} (mean h : FVec Ideal ⟨2, ![M, 128]⟩ .f32) (mean' h' : FVec Ideal ⟨2, ![M', 128]⟩ .f32)
    (Wl Wr : FVec Ideal ⟨2, ![128, 128]⟩ .f32) (bl : FVec Ideal ⟨1, ![128]⟩ .f32) (p : Fin M) (p' : Fin M') (q : Fin 128)
    (hm : ∀ k : Fin 128, mean (ix2 p k) = mean' (ix2 p' k)) (hh : ∀ k : Fin 128, h (ix2 p k) = h' (ix2 p' k)) :
    combine mean h Wl Wr bl p q = combine mean' h' Wl Wr bl p' q := by
  unfold combine
  simp only [hm, hh]

end Cert.Sage

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Payload.lean ====
/-
  What one grid step of each kernel stores, entry by entry, at the ideal values.

  A step loads a 4096-row block of the means and of the features, the two weight matrices and the bias row, narrows
  the four matrices to bf16 (the identity on ideal values), multiplies each block by its weights into a zero
  accumulator, adds the two products, adds the bias row to every row, and (first layer only) takes the larger of the
  result and zero. Entry `(p, q)` of what it stores is therefore `Cert.Sage.combine` of the loaded blocks at `(p, q)`.
-/
import proofs.«103073_j46866683134377_1_alg».proof.Proof.Gen.KernelIdeal.Skeleton
import proofs.«103073_j46866683134377_1_alg».proof.Proof.Dense
import proofs.«103073_j46866683134377_1_alg».proof.Proof.LibDot
import Idealize.ShloMosaic.Lib.Pipeline.Value

noncomputable section

namespace Cert.KernelIdeal.Hand

open Idealize.ShloMosaic Idealize.ShloMosaic.ValueIdx Cert.KernelIdeal.Gen Cert.Sage

/-- The kernels' product is the plain rows-by-columns product of a 4096 × 128 block by a 128 × 128 matrix. -/
theorem dot_plain : dot_S4096x128_S128x128_S4096x128_1_0_0_1_n_n = DotDims.plain 4096 128 128 := rfl

/-- The bias row, viewed as a one-row matrix and repeated down the block, read at `(p, q)` is the bias at `q`. -/
theorem bias_apply (x3 : FVec Ideal S128 .f32) (p : Fin 4096) (q : Fin 128) :
    broadcastTo S4096x128 (shapeCast S1x128 x3 shapeCasts_S128_S1x128) broadcasts_S1x128_S4096x128 (ix2 p q) = x3 (ix1 q) := by
  refine (broadcastTo_apply _ broadcasts_S1x128_S4096x128 (ix2 p q) (ix2 (0 : Fin 1) q) (fun a => ?_)).trans ?_
  · match a with
    | ⟨0, _⟩ => rfl
    | ⟨1, _⟩ => rfl
  · refine shapeCast_apply x3 shapeCasts_S128_S1x128 (ix2 (0 : Fin 1) q) (ix1 q) ?_
    rw [Shape.rowMajor_val_one, Shape.rowMajor_val_two]
    show q.val = 0 * 128 + q.val
    omega

/-- A product of the step, read at `(p, q)`: the sum over the shared axis. -/
theorem prod_apply (x : FVec Ideal S4096x128 .f32) (w : FVec Ideal S128x128 .f32) (p : Fin 4096) (q : Fin 128) :
    matmul (F := Ideal) dot_S4096x128_S128x128_S4096x128_1_0_0_1_n_n none
        (truncf .bf16 (shapeCast S4096x128 x shapeCasts_S4096x128_S4096x128) bitsLt_bf16_f32)
        (truncf .bf16 w bitsLt_bf16_f32) (constant S4096x128 .f32 0x00000000#32) (ix2 p q)
      = ∑ k : Fin 128, x (ix2 p k) * w (ix2 k q) := by
  rw [shapeCast_self]
  show FloatOps.matmul (F := Ideal) dot_S4096x128_S128x128_S4096x128_1_0_0_1_n_n none _ _ _ _ = _
  rw [dot_plain]
  exact Cert.GNN.matmul_plain_zero_apply none (truncf .bf16 x bitsLt_bf16_f32) (truncf .bf16 w bitsLt_bf16_f32) p q

/-- The first layer's step stores the rectified layer entry of its loaded blocks. -/
theorem pay0_apply (x0 x1 : FVec Ideal S4096x128 .f32) (x2 x4 : FVec Ideal S128x128 .f32) (x3 : FVec Ideal S128 .f32)
    (p : Fin 4096) (q : Fin 128) :
    k0_pay1 (F := Ideal) x0 x1 x2 x4 x3 (ix2 p q) = finish0 (combine (M := 4096) x0 x1 x2 x4 x3 p q) := by
  unfold k0_pay1
  rw [maximumf_apply, addf_apply, addf_apply, prod_apply, prod_apply, bias_apply]
  rfl

/-- The second layer's step stores the layer entry of its loaded blocks. -/
theorem pay1_apply (x0 x1 : FVec Ideal S4096x128 .f32) (x2 x4 : FVec Ideal S128x128 .f32) (x3 : FVec Ideal S128 .f32)
    (p : Fin 4096) (q : Fin 128) :
    k1_pay1 (F := Ideal) x0 x1 x2 x4 x3 (ix2 p q) = finish1 (combine (M := 4096) x0 x1 x2 x4 x3 p q) := by
  unfold k1_pay1
  rw [addf_apply, addf_apply, prod_apply, prod_apply, bias_apply]
  rfl

end Cert.KernelIdeal.Hand

end
-- ==== Proof.Region0Value.lean ====
/-
  The array the first layer's kernel leaves, as one function of the arrays it is launched on.

  The kernel walks 25 blocks of 4096 rows. At block `t` it loads rows `4096·t … 4096·t + 4095` of the (padded) means
  and features, the whole weight matrices and the whole bias row, and writes back the layer's entries for those rows.
  Row `4096·t + p` of the output therefore depends on row `4096·t + p` of the two inputs alone; the 25 blocks tile the
  102400 rows, so the whole output is `Cert.Sage.layer0` of the input arrays.
-/
import proofs.«103073_j46866683134377_1_alg».proof.Proof.Gen.KernelIdeal.Frame
import proofs.«103073_j46866683134377_1_alg».proof.Proof.Payload
import Idealize.ShloMosaic.Lib.Pipeline.Value

set_option maxRecDepth 16384

noncomputable section

namespace Cert.KernelIdeal.Hand.Region0

open Idealize.ShloMosaic Idealize.ShloMosaic.TcCoe Idealize.ShloMosaic.ValueIdx Idealize.SL.Sem
open Idealize.ShloMosaic.Pipeline (Dat)
open Cert.KernelIdeal.Gen Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two row-blocked inputs move with the output, down the rows only; the weights and
    the bias stay at their one block. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every one of the 25 row blocks is some grid point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- What point `t` writes back is block `t` of the layer's output computed from the whole input arrays. -/
theorem flushed_eq (c : Dev nD) (t : Fin cfg0.N) :
    (dat0 V c).flushed 5 t = ((cfg0.win 5).blk t).view.read (Elt Ideal)
      (layer0 (M := 102400) (V c main_v23) (V c main_v24) (V c main_arg2) (V c main_arg4) (V c main_arg3)) := by
  show (cfg0.win 5).cut (grid0.coords t) ((dat0 V c).after 5 t) = _
  rw [after0_5]
  unfold out0_5
  rw [View.canon_unit_zero hz2]
  simp only [View.ld_unit_zero (S := S4096x128) hz2, View.ld_unit_zero (S := S128x128) hz2, View.ld_unit_zero (S := S128) hz1]
  obtain ⟨e00, e01, e10, e11, e20, e21, e30, e40, e41, e51, e5b⟩ := idx_facts t
  funext j
  obtain ⟨p, q, rfl⟩ : ∃ (p : Fin 4096) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = finish0 (combine (M := 102400) (V c main_v23) (V c main_v24) (V c main_arg2) (V c main_arg4) (V c main_arg3) ((((cfg0.win 5).blk t).view.emb (ix2 p q)) 0) ((((cfg0.win 5).blk t).view.emb (ix2 p q)) 1))
  refine (pay0_apply (iblk0 V c 0 t) (iblk0 V c 1 t) (iblk0 V c 2 t) (iblk0 V c 4 t) (iblk0 V c 3 t) p q).trans ?_
  refine congrArg finish0 ?_
  unfold combine
  have hm : ∀ k : Fin 128, (iblk0 V c 0 t : Vec Ideal S4096x128 .f32) (ix2 p k)
      = (V c main_v23 : Vec Ideal S102400x128 .f32) (ix2 ((((cfg0.win 5).blk t).view.emb (ix2 p q)) 0) k) := fun k => by
    show (V c main_v23 : Vec Ideal S102400x128 .f32) (((cfg0.win 0).blk t).view.emb (ix2 p k)) = _
    refine congrArg (V c main_v23 : Vec Ideal S102400x128 .f32) (funext fun a => Fin.ext ?_)
    match a with
    | ⟨0, _⟩ => show win0_0.index t (0 : Fin 2) * 4096 + 1 * p.val = win0_5.index t (0 : Fin 2) * 4096 + 1 * p.val; omega
    | ⟨1, _⟩ => show win0_0.index t (1 : Fin 2) * 128 + 1 * k.val = k.val; omega
  have hh : ∀ k : Fin 128, (iblk0 V c 1 t : Vec Ideal S4096x128 .f32) (ix2 p k)
      = (V c main_v24 : Vec Ideal S102400x128 .f32) (ix2 ((((cfg0.win 5).blk t).view.emb (ix2 p q)) 0) k) := fun k => by
    show (V c main_v24 : Vec Ideal S102400x128 .f32) (((cfg0.win 1).blk t).view.emb (ix2 p k)) = _
    refine congrArg (V c main_v24 : Vec Ideal S102400x128 .f32) (funext fun a => Fin.ext ?_)
    match a with
    | ⟨0, _⟩ => show win0_1.index t (0 : Fin 2) * 4096 + 1 * p.val = win0_5.index t (0 : Fin 2) * 4096 + 1 * p.val; omega
    | ⟨1, _⟩ => show win0_1.index t (1 : Fin 2) * 128 + 1 * k.val = k.val; omega
  have hl : ∀ k : Fin 128, (iblk0 V c 2 t : Vec Ideal S128x128 .f32) (ix2 k q)
      = (V c main_arg2 : Vec Ideal S128x128 .f32) (ix2 k ((((cfg0.win 5).blk t).view.emb (ix2 p q)) 1)) := fun k => by
    show (V c main_arg2 : Vec Ideal S128x128 .f32) (((cfg0.win 2).blk t).view.emb (ix2 k q)) = _
    refine congrArg (V c main_arg2 : Vec Ideal S128x128 .f32) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have hr : ∀ k : Fin 128, (iblk0 V c 4 t : Vec Ideal S128x128 .f32) (ix2 k q)
      = (V c main_arg4 : Vec Ideal S128x128 .f32) (ix2 k ((((cfg0.win 5).blk t).view.emb (ix2 p q)) 1)) := fun k => by
    show (V c main_arg4 : Vec Ideal S128x128 .f32) (((cfg0.win 4).blk t).view.emb (ix2 k q)) = _
    refine congrArg (V c main_arg4 : Vec Ideal S128x128 .f32) (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  have hb : (iblk0 V c 3 t : Vec Ideal S128 .f32) (ix1 q)
      = (V c main_arg3 : Vec Ideal S128 .f32) (ix1 ((((cfg0.win 5).blk t).view.emb (ix2 p q)) 1)) := by
    show (V c main_arg3 : Vec Ideal S128 .f32) (((cfg0.win 3).blk t).view.emb (ix1 q)) = _
    refine congrArg (V c main_arg3 : Vec Ideal S128 .f32) (funext fun a => Fin.ext ?_)
    match a with
    | ⟨0, _⟩ => show win0_3.index t (0 : Fin 1) * 128 + 1 * q.val = win0_5.index t (1 : Fin 2) * 128 + 1 * q.val; omega
  simp only [hm, hh, hl, hr, hb]

/-- An index of the output array is in point `t`'s block iff each coordinate is in the block's range on its axis. -/
theorem mem_blk (t : Fin cfg0.N) (i : S102400x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v25).slice (win0_5.rect t)).set ↔ _
  rw [View.set_slice_whole, Rect.mem_set_unit]
  exact Iff.rfl

/-- The blocks tile the array: row `r` is in the block of the point whose block index is `r / 4096`. -/
theorem cover (i : S102400x128.Idx) :
    ∃ t : Fin cfg0.N, (cfg0.win 5).flush t = true ∧ i ∈ ((cfg0.win 5).blk t).view.set := by
  have hi0 : (i 0).val < 102400 := (i 0).isLt
  have hi1 : (i 1).val < 128 := (i 1).isLt
  obtain ⟨t, ht⟩ := idx_onto ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The output array after the region: the layer's output of the arrays the region was entered with. -/
theorem final (c : Dev nD) :
    (dat0 V c).arrAt 5 cfg0.N = layer0 (M := 102400) (V c main_v23) (V c main_v24) (V c main_arg2) (V c main_arg4) (V c main_arg3) :=
  (dat0 V c).arrAt_eq_of_cover 5 _ (fun t _ => flushed_eq V c t) cover

end Cert.KernelIdeal.Hand.Region0

end
-- ==== Proof.KernelValue.lean ====
/-
  The kernel program's result as two layers.

  The result buffer is the first 100000 rows of what the second launch leaves; the second launch is entered with the
  padded means of, and the padded, first 100000 rows of what the first launch leaves; the first launch is entered with
  the padded means of, and the padded, features. Each launch leaves its layer of what it is entered with.
-/
import proofs.«103073_j46866683134377_1_alg».proof.Proof.KernelChain
import proofs.«103073_j46866683134377_1_alg».proof.Proof.Region0Value
import proofs.«103073_j46866683134377_1_alg».proof.Proof.Region1Value

set_option maxRecDepth 16384

noncomputable section

namespace Cert.KernelIdeal.Hand

open Idealize.ShloMosaic Idealize.ShloMosaic.TcCoe Idealize.SL.Sem
open Cert.KernelIdeal.Gen Cert.Sage

variable (m : (ℓ : Loc nD τ sig) → Buf (Elt Ideal) ℓ) (ρ : Dev nD → PrngReg)

/-- The first layer's output, from the arguments: what the second launch's host operations start from. -/
def hiddenK (e : Vec Ideal S2x600000 .i32) (x : FVec Ideal S100000x128 .f32) (Wl : FVec Ideal S128x128 .f32) (bl : FVec Ideal S128 .f32)
    (Wr : FVec Ideal S128x128 .f32) : FVec Ideal S100000x128 .f32 :=
  topRows (layer0 (M := 102400) (padRows (meanOfRaw (srcRaw e) (dstRaw e) x)) (padRows x) Wl Wr bl)

/-- What the first launch leaves in its output array. -/
theorem first_launch (c : Dev nD) :
    W5 m ρ c (Proc.devRef .tc main_v25)
      = layer0 (M := 102400)
          (padRows (meanOfRaw (srcRaw (m ((c.tc : Thread nD τ).loc main_arg1))) (dstRaw (m ((c.tc : Thread nD τ).loc main_arg1))) (m ((c.tc : Thread nD τ).loc main_arg0))))
          (padRows (m ((c.tc : Thread nD τ).loc main_arg0))) (m ((c.tc : Thread nD τ).loc main_arg2)) (m ((c.tc : Thread nD τ).loc main_arg4))
          (m ((c.tc : Thread nD τ).loc main_arg3)) := by
  have h25 : W5 m ρ c (Proc.devRef .tc main_v25) = (dat0 (V4 m ρ) c).arrAt 5 cfg0.N := W5_arr m ρ c 5
  have a2 : V4 m ρ c main_arg2 = m ((c.tc : Thread nD τ).loc main_arg2) := W4_arg m ρ c main_arg2 (by simp)
  have a3 : V4 m ρ c main_arg3 = m ((c.tc : Thread nD τ).loc main_arg3) := W4_arg m ρ c main_arg3 (by simp)
  have a4 : V4 m ρ c main_arg4 = m ((c.tc : Thread nD τ).loc main_arg4) := W4_arg m ρ c main_arg4 (by simp)
  rw [h25, Region0.final (V4 m ρ) c, V4_mean, V4_feat, a2, a3, a4]

/-- The kernel program's result, from the arguments. -/
theorem kernel_value (c : Dev nD) :
    W11 m ρ c (Proc.devRef .tc main_v49)
      = topRows (layer1 (M := 102400)
          (padRows (meanOfRaw (srcRaw (m ((c.tc : Thread nD τ).loc main_arg1))) (dstRaw (m ((c.tc : Thread nD τ).loc main_arg1)))
            (hiddenK (m ((c.tc : Thread nD τ).loc main_arg1)) (m ((c.tc : Thread nD τ).loc main_arg0)) (m ((c.tc : Thread nD τ).loc main_arg2))
              (m ((c.tc : Thread nD τ).loc main_arg3)) (m ((c.tc : Thread nD τ).loc main_arg4)))))
          (padRows (hiddenK (m ((c.tc : Thread nD τ).loc main_arg1)) (m ((c.tc : Thread nD τ).loc main_arg0)) (m ((c.tc : Thread nD τ).loc main_arg2))
              (m ((c.tc : Thread nD τ).loc main_arg3)) (m ((c.tc : Thread nD τ).loc main_arg4))))
          (m ((c.tc : Thread nD τ).loc main_arg5)) (m ((c.tc : Thread nD τ).loc main_arg7)) (m ((c.tc : Thread nD τ).loc main_arg6))) := by
  have h48 : W10 m ρ c (Proc.devRef .tc main_v48) = (dat1 (V9 m ρ) c).arrAt 5 cfg1.N := W10_arr m ρ c 5
  have s1 : W5 m ρ c (Proc.devRef .tc main_v1) = srcRaw (m ((c.tc : Thread nD τ).loc main_arg1)) :=
    (W5_keep m ρ c main_v1 (by decide)).trans (W4_src m ρ c)
  have s3 : W5 m ρ c (Proc.devRef .tc main_v3) = dstRaw (m ((c.tc : Thread nD τ).loc main_arg1)) :=
    (W5_keep m ρ c main_v3 (by decide)).trans (W4_dst m ρ c)
  have a5 : V9 m ρ c main_arg5 = m ((c.tc : Thread nD τ).loc main_arg5) :=
    (W9_arg m ρ c main_arg5 (by simp)).trans ((W5_keep m ρ c main_arg5 (by decide)).trans (W4_arg m ρ c main_arg5 (by simp)))
  have a6 : V9 m ρ c main_arg6 = m ((c.tc : Thread nD τ).loc main_arg6) :=
    (W9_arg m ρ c main_arg6 (by simp)).trans ((W5_keep m ρ c main_arg6 (by decide)).trans (W4_arg m ρ c main_arg6 (by simp)))
  have a7 : V9 m ρ c main_arg7 = m ((c.tc : Thread nD τ).loc main_arg7) :=
    (W9_arg m ρ c main_arg7 (by simp)).trans ((W5_keep m ρ c main_arg7 (by decide)).trans (W4_arg m ρ c main_arg7 (by simp)))
  rw [W11_result, h48, Region1.final (V9 m ρ) c, V9_mean, V9_feat, a5, a6, a7, s1, s3, first_launch]
  rfl

end Cert.KernelIdeal.Hand

end
-- ==== Proof.RefValue.lean ====
/-
  The reference's result as two layers.

  The reference computes, twice, the neighbourhood means of the current features (`meanOfRaw`: gather the source rows,
  add them up per destination, divide by the number of incoming edges, at least one) and then the layer
  `mean · Wl + bl + h · Wr` (`layerHost`), rectifying the first layer's output. Its run's composed term is exactly this
  composition: the definitions below are cut out of that term, and `result_eq` is by unfolding.
-/
import proofs.«103073_j46866683134377_1_alg».proof.Proof.Gen.ReferenceIdeal.Run

set_option maxRecDepth 16384

noncomputable section

namespace Cert.ReferenceIdeal.Hand

open Idealize.ShloMosaic Idealize.ShloMosaic.TcCoe Idealize.SL.Sem
open Cert.ReferenceIdeal.Gen Cert.ReferenceIdeal.Value

variable {F : FTy → Type} [FloatOps F]

/-- Row 0 of the edge list: every edge's source node. -/
def srcRaw (e : Vec F S2x600000 .i32) : Vec F S600000 .i32 :=
  shapeCast S600000 (extractStridedSlice S1x600000 ![0, 0] e slices_S2x600000_S1x600000_0_0) shapeCasts_S1x600000_S600000

/-- Row 1 of the edge list: every edge's destination node. -/
def dstRaw (e : Vec F S2x600000 .i32) : Vec F S600000 .i32 :=
  shapeCast S600000 (extractStridedSlice S1x600000 ![1, 0] e slices_S2x600000_S1x600000_1_0) shapeCasts_S1x600000_S600000

/-- The neighbourhood means of the features `h` over the edges with sources `s` and destinations `d`. -/
def meanOfRaw (s d : Vec F S600000 .i32) (h : FVec F S100000x128 .f32) : FVec F S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 d)
      (Host.gather gather_S100000x128_S600000x1_S600000x128_1_0_n_n_0_1_1128 h
        (broadcastInDim S600000x1 ![0] bcast_S600000_S600000x1_0
          (select (cmpi .slt s (broadcastInDim S600000 ![] bcast_S_S600000 (constantI S_ 32 0#32)))
            (addi s (broadcastInDim S600000 ![] bcast_S_S600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 d)
            (broadcastInDim S600000 ![] bcast_S_S600000 (constant S_ .f32 0x3F800000#32)))
          (broadcastInDim S100000 ![] bcast_S_S100000 (constant S_ .f32 0x3F800000#32)))))

/-- One layer in the host's order: first product, bias row on every row, second product. -/
def layerHost (mean h : FVec F S100000x128 .f32) (Wl : FVec F S128x128 .f32) (bl : FVec F S128 .f32) (Wr : FVec F S128x128 .f32) :
    FVec F S100000x128 .f32 :=
  addf
    (addf (Host.dotGeneral dot_S100000x128_S128x128_S100000x128_1_0_0_1_n_n none mean Wl)
      (broadcastInDim S100000x128 ![0, 1] bcast_S1x128_S100000x128_0_1 (broadcastInDim S1x128 ![1] bcast_S128_S1x128_1 bl)))
    (Host.dotGeneral dot_S100000x128_S128x128_S100000x128_1_0_0_1_n_n none h Wr)

/-- The rectifier: the larger of each entry and zero. -/
def rectify (a : FVec F S100000x128 .f32) : FVec F S100000x128 .f32 :=
  maximumf a (broadcastInDim S100000x128 ![] bcast_S_S100000x128 (constant S_ .f32 0x00000000#32))

/-- The first layer's rectified output, from the arguments. -/
def hidden (e : Vec F S2x600000 .i32) (x : FVec F S100000x128 .f32) (Wl : FVec F S128x128 .f32) (bl : FVec F S128 .f32)
    (Wr : FVec F S128x128 .f32) : FVec F S100000x128 .f32 :=
  rectify (layerHost (meanOfRaw (srcRaw e) (dstRaw e) x) x Wl bl Wr)

/-- The reference's result is the second layer of the first layer's rectified output. -/
theorem result_eq (m : (ℓ : Loc nD τ sig) → Buf (Elt F) ℓ) (c : Dev nD) :
    res_main_v54 m c
      = layerHost
          (meanOfRaw (srcRaw (m ((c.tc : Thread nD τ).loc main_arg1))) (dstRaw (m ((c.tc : Thread nD τ).loc main_arg1)))
            (hidden (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4))))
          (hidden (m ((c.tc : Thread nD τ).loc main_arg1)) (m ((c.tc : Thread nD τ).loc main_arg0))
            (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7)) := by
  unfold res_main_v54 hidden rectify layerHost meanOfRaw srcRaw dstRaw
  rfl

end Cert.ReferenceIdeal.Hand

end
-- ==== Proof.Bridge.lean ====
/-
  The kernel's layers are the reference's layers.

  A kernel layer is computed on arrays padded to 102400 rows and cut back to 100000 rows. Row `p < 100000` of the padded
  arrays is row `p` of the arrays themselves, and an output row depends on that one input row only, so the padding never
  reaches a kept entry. What remains is the order of the three summands of an entry: the kernel forms
  (first product + second product) + bias, the reference (first product + bias) + second product — one extended real.
  The neighbourhood means are the same host computation in both programs, term for term.
-/
import proofs.«103073_j46866683134377_1_alg».proof.Proof.KernelChain
import proofs.«103073_j46866683134377_1_alg».proof.Proof.RefValue
import proofs.«103073_j46866683134377_1_alg».proof.Proof.Dense
import proofs.«103073_j46866683134377_1_alg».proof.Proof.LibDot
import Idealize.ShloMosaic.Lib.Pipeline.Value
import Idealize.ShloMosaic.Lib.KernelVsHost
import Idealize.ShloMosaic.Lib.IdealHost

set_option maxRecDepth 16384

noncomputable section

namespace Cert.Sage

open Idealize.ShloMosaic Idealize.ShloMosaic.ValueIdx

local notation "SN" => (⟨2, ![100000, 128]⟩ : Shape)
local notation "SP" => (⟨2, ![102400, 128]⟩ : Shape)
local notation "SW" => (⟨2, ![128, 128]⟩ : Shape)
local notation "SB" => (⟨1, ![128]⟩ : Shape)

/-- A row below 100000, as a row of the padded arrays. -/
def up (p : Fin 100000) : Fin 102400 := ⟨p.val, by have := p.isLt; omega⟩

/-- The first 100000 rows of an array of 102400 rows, read at `(p, q)`. -/
theorem topRows_apply (a : FVec Ideal SP .f32) (p : Fin 100000) (q : Fin 128) :
    Cert.KernelIdeal.Hand.topRows a (ix2 p q) = a (ix2 (up p) q) := by
  unfold Cert.KernelIdeal.Hand.topRows
  refine extractStridedSlice_apply _ a _ (ix2 p q) (ix2 (up p) q) (fun b => ?_)
  match b with
  | ⟨0, _⟩ => show p.val = 0 + p.val; omega
  | ⟨1, _⟩ => show q.val = 0 + q.val; omega

/-- An array padded with rows at the end, read at a row below 100000, is the array there. -/
theorem padRows_apply (a : FVec Ideal SN .f32) (p : Fin 100000) (k : Fin 128) :
    Cert.KernelIdeal.Hand.padRows a (ix2 (up p) k) = a (ix2 p k) := by
  unfold Cert.KernelIdeal.Hand.padRows
  refine pad_apply_of_inside _ _ _ a _ _ _ (ix2 (up p) k) (ix2 p k) (fun b => ?_)
  match b with
  | ⟨0, _⟩ => show p.val = 0 + p.val * (0 + 1); omega
  | ⟨1, _⟩ => show k.val = 0 + k.val * (0 + 1); omega

/-- The reference's product is the plain rows-by-columns product of a 100000 × 128 array by a 128 × 128 matrix. -/
theorem dot_plain : Cert.ReferenceIdeal.dot_S100000x128_S128x128_S100000x128_1_0_0_1_n_n = DotDims.plain 100000 128 128 := rfl

/-- The reference's bias row, repeated down the rows, read at `(p, q)`. -/
theorem biasHost_apply (h1 : Shape.BroadcastsInDim SB (⟨2, ![1, 128]⟩ : Shape) ![1])
    (h2 : Shape.BroadcastsInDim (⟨2, ![1, 128]⟩ : Shape) SN ![0, 1]) (bl : FVec Ideal SB .f32) (p : Fin 100000) (q : Fin 128) :
    broadcastInDim SN ![0, 1] h2 (broadcastInDim (⟨2, ![1, 128]⟩ : Shape) ![1] h1 bl) (ix2 p q) = bl (ix1 q) := by
  refine (broadcastInDim_oneRow_apply h2 _ p q).trans ?_
  refine broadcastInDim_apply ![1] h1 bl (ix2 (0 : Fin 1) q) (ix1 q) (fun b => ?_)
  match b with
  | ⟨0, _⟩ => show q.val = if (128 : ℕ) = 1 then 0 else q.val; rw [if_neg (by decide)]

/-- One entry of the reference's layer: the layer's entry, the summands in the host's order. -/
theorem layerHost_apply (mean h : FVec Ideal SN .f32) (Wl : FVec Ideal SW .f32) (bl : FVec Ideal SB .f32) (Wr : FVec Ideal SW .f32)
    (p : Fin 100000) (q : Fin 128) :
    Cert.ReferenceIdeal.Hand.layerHost mean h Wl bl Wr (ix2 p q) = combine mean h Wl Wr bl p q := by
  unfold Cert.ReferenceIdeal.Hand.layerHost
  rw [addf_apply, addf_apply, biasHost_apply]
  show FloatOps.dotGeneral Cert.ReferenceIdeal.dot_S100000x128_S128x128_S100000x128_1_0_0_1_n_n none .single mean Wl (ix2 p q) + bl (ix1 q)
      + FloatOps.dotGeneral Cert.ReferenceIdeal.dot_S100000x128_S128x128_S100000x128_1_0_0_1_n_n none .single h Wr (ix2 p q) = _
  rw [dot_plain, Cert.GNN.dotGeneral_plain_apply, Cert.GNN.dotGeneral_plain_apply]
  exact combine_host_order mean h Wl Wr bl p q

/-- An entry of a kernel layer on padded arrays, at a kept row, is the entry on the arrays themselves. -/
theorem combine_pad (mean h : FVec Ideal SN .f32) (Wl Wr : FVec Ideal SW .f32) (bl : FVec Ideal SB .f32) (p : Fin 100000) (q : Fin 128) :
    combine (M := 102400) (Cert.KernelIdeal.Hand.padRows mean) (Cert.KernelIdeal.Hand.padRows h) Wl Wr bl (up p) q
      = combine mean h Wl Wr bl p q :=
  combine_congr _ _ mean h Wl Wr bl (up p) p q (fun k => padRows_apply mean p k) (fun k => padRows_apply h p k)

/-- THE FIRST LAYER: padded, run through the kernel's layer, cut back — the reference's rectified layer. -/
theorem layer0_host (mean h : FVec Ideal SN .f32) (Wl : FVec Ideal SW .f32) (bl : FVec Ideal SB .f32) (Wr : FVec Ideal SW .f32) :
    Cert.KernelIdeal.Hand.topRows (layer0 (M := 102400) (Cert.KernelIdeal.Hand.padRows mean) (Cert.KernelIdeal.Hand.padRows h) Wl Wr bl)
      = Cert.ReferenceIdeal.Hand.rectify (Cert.ReferenceIdeal.Hand.layerHost mean h Wl bl Wr) := by
  funext i
  obtain ⟨p, q, rfl⟩ : ∃ (p : Fin 100000) (q : Fin 128), i = ix2 p q := ⟨i 0, i 1, eq_ix2 i⟩
  rw [topRows_apply, layer0_apply, combine_pad]
  unfold Cert.ReferenceIdeal.Hand.rectify
  rw [maximumf_apply, layerHost_apply, broadcastInDim_scalar_apply]
  rfl

/-- THE SECOND LAYER: the same without the rectifier. -/
theorem layer1_host (mean h : FVec Ideal SN .f32) (Wl : FVec Ideal SW .f32) (bl : FVec Ideal SB .f32) (Wr : FVec Ideal SW .f32) :
    Cert.KernelIdeal.Hand.topRows (layer1 (M := 102400) (Cert.KernelIdeal.Hand.padRows mean) (Cert.KernelIdeal.Hand.padRows h) Wl Wr bl)
      = Cert.ReferenceIdeal.Hand.layerHost mean h Wl bl Wr := by
  funext i
  obtain ⟨p, q, rfl⟩ : ∃ (p : Fin 100000) (q : Fin 128), i = ix2 p q := ⟨i 0, i 1, eq_ix2 i⟩
  rw [topRows_apply, layer1_apply, combine_pad, layerHost_apply]

/-- The two programs take an edge's source and destination the same way, -/
theorem srcRaw_eq (e : Vec Ideal Cert.KernelIdeal.S2x600000 .i32) :
    Cert.KernelIdeal.Hand.srcRaw (F := Ideal) e = Cert.ReferenceIdeal.Hand.srcRaw (F := Ideal) e := rfl
theorem dstRaw_eq (e : Vec Ideal Cert.KernelIdeal.S2x600000 .i32) :
    Cert.KernelIdeal.Hand.dstRaw (F := Ideal) e = Cert.ReferenceIdeal.Hand.dstRaw (F := Ideal) e := rfl

/-- and form the neighbourhood means by the same host operations. -/
theorem meanOfRaw_eq (s d : Vec Ideal Cert.KernelIdeal.S600000 .i32) (h : FVec Ideal SN .f32) :
    Cert.KernelIdeal.Hand.meanOfRaw (F := Ideal) s d h = Cert.ReferenceIdeal.Hand.meanOfRaw (F := Ideal) s d h := by
  unfold Cert.KernelIdeal.Hand.meanOfRaw Cert.ReferenceIdeal.Hand.meanOfRaw
  rfl

end Cert.Sage

end
-- ==== Proof.Agree.lean ====
/-
  The two programs compute one function of the arguments.

  Layer by layer: the kernel's first layer (padded, launched, cut back) is the reference's rectified first layer
  (`Cert.Sage.layer0_host`), the neighbourhood means of equal features are equal (the same host operations), and the
  kernel's second layer of them is the reference's second layer (`Cert.Sage.layer1_host`).
-/
import proofs.«103073_j46866683134377_1_alg».proof.Proof.Bridge
import proofs.«103073_j46866683134377_1_alg».proof.Proof.KernelValue

set_option maxRecDepth 16384

noncomputable section

namespace Cert.Sage

open Idealize.ShloMosaic Idealize.ShloMosaic.ValueIdx

local notation "SN" => (⟨2, ![100000, 128]⟩ : Shape)
local notation "SW" => (⟨2, ![128, 128]⟩ : Shape)
local notation "SB" => (⟨1, ![128]⟩ : Shape)
local notation "SE" => (⟨2, ![2, 600000]⟩ : Shape)

/-- The first layer's output is the same array in both programs. -/
theorem hidden_eq (e : Vec Ideal SE .i32) (x : FVec Ideal SN .f32) (Wl : FVec Ideal SW .f32) (bl : FVec Ideal SB .f32) (Wr : FVec Ideal SW .f32) :
    Cert.KernelIdeal.Hand.hiddenK e x Wl bl Wr = Cert.ReferenceIdeal.Hand.hidden (F := Ideal) e x Wl bl Wr := by
  unfold Cert.KernelIdeal.Hand.hiddenK Cert.ReferenceIdeal.Hand.hidden
  rw [layer0_host, meanOfRaw_eq, srcRaw_eq, dstRaw_eq]

/-- The whole network: the kernel's second layer of the first layer's output is the reference's. -/
theorem network_eq (e : Vec Ideal SE .i32) (x : FVec Ideal SN .f32) (Wl1 : FVec Ideal SW .f32) (bl1 : FVec Ideal SB .f32) (Wr1 : FVec Ideal SW .f32)
    (Wl2 : FVec Ideal SW .f32) (bl2 : FVec Ideal SB .f32) (Wr2 : FVec Ideal SW .f32) :
    Cert.KernelIdeal.Hand.topRows (layer1 (M := 102400)
        (Cert.KernelIdeal.Hand.padRows (Cert.KernelIdeal.Hand.meanOfRaw (Cert.KernelIdeal.Hand.srcRaw e) (Cert.KernelIdeal.Hand.dstRaw e)
          (Cert.KernelIdeal.Hand.hiddenK e x Wl1 bl1 Wr1)))
        (Cert.KernelIdeal.Hand.padRows (Cert.KernelIdeal.Hand.hiddenK e x Wl1 bl1 Wr1)) Wl2 Wr2 bl2)
      = Cert.ReferenceIdeal.Hand.layerHost
          (Cert.ReferenceIdeal.Hand.meanOfRaw (Cert.ReferenceIdeal.Hand.srcRaw e) (Cert.ReferenceIdeal.Hand.dstRaw e)
            (Cert.ReferenceIdeal.Hand.hidden e x Wl1 bl1 Wr1))
          (Cert.ReferenceIdeal.Hand.hidden e x Wl1 bl1 Wr1) Wl2 bl2 Wr2 := by
  rw [layer1_host, hidden_eq, meanOfRaw_eq, srcRaw_eq, dstRaw_eq]

end Cert.Sage

end
-- ==== Proof.lean ====
/-
  The certificate of a two-layer neighbourhood-mean network: a Pallas kernel per layer against a plain jnp reference.

  Each layer forms, for every node, the mean of its in-neighbours' features (on the host in both programs, by the same
  gather, per-destination sums and division), then `mean · Wl + bl + h · Wr`; the first layer's output is rectified.
  The kernel program pads the two inputs of a layer to 25 blocks of 4096 rows, computes
  `(mean · Wl + h · Wr) + bl` block by block with bf16-narrowed operands, and keeps the first 100000 rows.

  At the ideal values narrowing is the identity and each product is the plain sum over the shared axis, so an entry of a
  kernel layer and of a reference layer are the same three summands added in two orders: equal on the extended reals
  with no finiteness needed. The padding rows never reach a kept entry, since an output row reads one input row.

  * `frame_Kernel`, `frame_KernelIdeal`: the generated frames of the two-launch program.
  * `frame_ReferenceIdeal`: the reference's generated run, its result dropped.
  * `preserves`: the ideal pass rewrote nothing.
  * `algebraic`: the kernel program's run with its result named (the launch theorem called once more over the
    generated segments), that result read back through the host operations and the two launches
    (`Cert.KernelIdeal.Hand.kernel_value`), the reference's result cut into the same two layers
    (`Cert.ReferenceIdeal.Hand.result_eq`), and `Cert.Sage.network_eq`.
-/
import proofs.«103073_j46866683134377_1_alg».proof.Defs
import proofs.«103073_j46866683134377_1_alg».proof.Proof.Gen.Kernel
import proofs.«103073_j46866683134377_1_alg».proof.Proof.Gen.Kernel.Frame
import proofs.«103073_j46866683134377_1_alg».proof.Proof.Gen.KernelIdeal
import proofs.«103073_j46866683134377_1_alg».proof.Proof.Gen.KernelIdeal.Frame
import proofs.«103073_j46866683134377_1_alg».proof.Proof.Gen.ReferenceIdeal
import proofs.«103073_j46866683134377_1_alg».proof.Proof.Gen.ReferenceIdeal.Run
import proofs.«103073_j46866683134377_1_alg».proof.Proof.Gen.Pre_finite_inputs
import proofs.«103073_j46866683134377_1_alg».proof.Proof.KernelRun
import proofs.«103073_j46866683134377_1_alg».proof.Proof.KernelValue
import proofs.«103073_j46866683134377_1_alg».proof.Proof.RefValue
import proofs.«103073_j46866683134377_1_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two-layer network of the arguments in their result arrays. -/
theorem algebraic : Cert.algebraic_KernelIdeal_ReferenceIdeal := by
  intro m ρ m' ρ' _ hagree
  refine ⟨fun c => Cert.KernelIdeal.Gen.W11 m ρ c (Proc.devRef .tc Cert.KernelIdeal.main_v49),
    Cert.KernelIdeal.Hand.run_valued (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  beta_reduce
  rw [Cert.ReferenceIdeal.Hand.result_eq, h0, h1, h2, h3, h4, h5, h6, h7, Cert.KernelIdeal.Hand.kernel_value]
  exact (Cert.Sage.network_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
